-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x14 : Shape := ⟨2, ![100000, 14]⟩
abbrev S2x3200000 : Shape := ⟨2, ![2, 3200000]⟩
abbrev S14x64 : Shape := ⟨2, ![14, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x14 : S_.BroadcastsInDim S100000x14 (![] : Fin 0 → Fin S100000x14.rank)
  reducesTo_S100000x14_S_d0_1 : S100000x14.ReducesTo [0, 1] S_
  h_S_ : 0 < S_.numel
  bcast_S_S14x64 : S_.BroadcastsInDim S14x64 (![] : Fin 0 → Fin S14x64.rank)
  reducesTo_S14x64_S_d0_1 : S14x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x14 .f32) (main_arg1 : IVec S2x3200000 32) (main_arg2 : FVec F S14x64 .f32) (main_arg3 : FVec F S64 .f32) (main_arg4 : FVec F S64x1 .f32) (main_arg5 : FVec F S1 .f32) : IVec S_ 1 :=
  let main_v0 : FVec F S100000x14 .f32 := Host.absf main_arg0
  let main_cst : FVec F S_ .f32 := constant S_ .f32 0x7F800000#32
  let main_v1 : FVec F S100000x14 .f32 := broadcastInDim S100000x14 ![] bcast_S_S100000x14 main_cst
  let main_v2 : IVec S100000x14 1 := cmpf .olt main_v0 main_v1
  let main_c : IVec S_ 1 := constantI S_ 1 1#1
  let main_v3 : IVec S_ 1 := (fun x v => Host.reduce IntOp.andi x v reducesTo_S100000x14_S_d0_1 h_S_) main_v2 main_c
  let main_v4 : FVec F S14x64 .f32 := Host.absf main_arg2
  let main_cst_0 : FVec F S_ .f32 := constant S_ .f32 0x7F800000#32
  let main_v5 : FVec F S14x64 .f32 := broadcastInDim S14x64 ![] bcast_S_S14x64 main_cst_0
  let main_v6 : IVec S14x64 1 := cmpf .olt main_v4 main_v5
  let main_c_1 : IVec S_ 1 := constantI S_ 1 1#1
  let main_v7 : IVec S_ 1 := (fun x v => Host.reduce IntOp.andi x v reducesTo_S14x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S100000x14 : Shape := ⟨2, ![100000, 14]⟩
abbrev S2x3200000 : Shape := ⟨2, ![2, 3200000]⟩
abbrev S14x64 : Shape := ⟨2, ![14, 64]⟩
abbrev S64 : Shape := ⟨1, ![64]⟩
abbrev S64x1 : Shape := ⟨2, ![64, 1]⟩
abbrev S1 : Shape := ⟨1, ![1]⟩
abbrev S100000x64 : Shape := ⟨2, ![100000, 64]⟩
abbrev S10000x14 : Shape := ⟨2, ![10000, 14]⟩
abbrev S10000x64 : Shape := ⟨2, ![10000, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 69
  | .vmem => 12
  | .smem => 0
  | _ => 0

abbrev bufTy : (tb : Table) → Fin (tcTables nBuf tb) → BufTy
  | .hbm, ⟨0, _⟩ => ⟨S100000x14, .f32⟩
  | .hbm, ⟨1, _⟩ => ⟨S2x3200000, .i32⟩
  | .hbm, ⟨2, _⟩ => ⟨S14x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000x64, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S1x1, .f32⟩
  | .hbm, ⟨68, _⟩ => ⟨S100000x1, .f32⟩
  | .local _ .vmem, ⟨0, _⟩ => ⟨S10000x14, .f32⟩
  | .local _ .vmem, ⟨1, _⟩ => ⟨S10000x14, .f32⟩
  | .local _ .vmem, ⟨2, _⟩ => ⟨S14x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x1, .f32⟩
  | .local _ .vmem, ⟨9, _⟩ => ⟨S1x1, .f32⟩
  | .local _ .vmem, ⟨10, _⟩ => ⟨S10000x1, .f32⟩
  | .local _ .vmem, ⟨11, _⟩ => ⟨S10000x1, .f32⟩
  | _, _ => ⟨S100000x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S14x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S10000x14_S10000x14_0_0 : ∀ a, (![0, 0] : Fin 2 → Nat) a + S10000x14.size a ≤ S10000x14.size a
  h_S10000x14 : 0 < S10000x14.numel
  bitsLt_bf16_f32 : FTy.bits .bf16 < FTy.bits .f32
  inb_S14x64_S14x64_0_0 : ∀ a, (![0, 0] : Fin 2 → Nat) a + S14x64.size a ≤ S14x64.size a
  h_S14x64 : 0 < S14x64.numel
  inb_S10000x64_S10000x64_0_0 : ∀ a, (![0, 0] : Fin 2 → Nat) a + S10000x64.size a ≤ S10000x64.size a
  h_S10000x64 : 0 < S10000x64.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S1_S1x1 : S1.ShapeCasts S1x1
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  dot_S10000x14_S14x64_S10000x64_1_0_0_1_n_n_wf : DotDims.WF S10000x14 S14x64 S10000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x14.size a ≤ S100000x14.size a
  hwx0_0 : ∀ i : grid0.Coords, EltTy.bits .f32 = 32 ∨ (Rect.block (s := S100000x14) S10000x14.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S14x64.size a ≤ S14x64.size a
  hwx0_1 : ∀ i : grid0.Coords, EltTy.bits .f32 = 32 ∨ (Rect.block (s := S14x64) S14x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x1.size a ≤ S100000x1.size a
  hwx1_4 : ∀ i : grid1.Coords, EltTy.bits .f32 = 32 ∨ (Rect.block (s := S100000x1) S10000x1.size (cc1_transform_4 i) (hinb1_4 i)).WholeWords (EltTy.packing .f32)

variable [Facts₀]

def dot_S10000x14_S14x64_S10000x64_1_0_0_1_n_n : DotDims S10000x14 S14x64 S10000x64 where
  lhsContracting := [1]
  rhsContracting := [0]
  lhsNonContracting := [0]
  rhsNonContracting := [1]
  lhsBatch := []
  rhsBatch := []
  wf := dot_S10000x14_S14x64_S10000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S14x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S10000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x14 : Shape := ⟨2, ![100000, 14]⟩
abbrev S2x3200000 : Shape := ⟨2, ![2, 3200000]⟩
abbrev S14x64 : Shape := ⟨2, ![14, 64]⟩
abbrev S64 : Shape := ⟨1, ![64]⟩
abbrev S64x1 : Shape := ⟨2, ![64, 1]⟩
abbrev S1 : Shape := ⟨1, ![1]⟩
abbrev S100000x64 : Shape := ⟨2, ![100000, 64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S100000x14, .f32⟩
  | .hbm, ⟨1, _⟩ => ⟨S2x3200000, .i32⟩
  | .hbm, ⟨2, _⟩ => ⟨S14x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000x64, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x1, .f32⟩
  | .hbm, ⟨73, _⟩ => ⟨S1x1, .f32⟩
  | .hbm, ⟨74, _⟩ => ⟨S100000x1, .f32⟩
  | .hbm, ⟨75, _⟩ => ⟨S100000x1, .f32⟩
  | _, _ => ⟨S100000x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x14_S14x64_S100000x64_1_0_0_1_n_n_wf : DotDims.WF S100000x14 S14x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x1_S100000x1_1_0_0_1_n_n_wf : DotDims.WF S100000x64 S64x1 S100000x1 [1] [0] [0] [1] [] []

variable [Facts₀]

def dot_S100000x14_S14x64_S100000x64_1_0_0_1_n_n : DotDims S100000x14 S14x64 S100000x64 where
  lhsContracting := [1]
  rhsContracting := [0]
  lhsNonContracting := [0]
  rhsNonContracting := [1]
  lhsBatch := []
  rhsBatch := []
  wf := dot_S100000x14_S14x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Aggregate.lean ====
/-
  The neighbourhood aggregation both programs share, as ONE function of the transformed features `h` and the edge list `e`.

  Both programs extend the edge list by a self-loop at every node, count each node's incoming edges, turn the counts into
  the symmetric normalisation `1 / sqrt(deg[src] · deg[dst])` of each edge, gather the source node's row of `h` for each
  edge, scale it, and add it into the destination node's row. They do so with the same sequence of array operations, the
  same constants and the same index plumbing; the only thing that differs between them is where `h` comes from. The
  function below is that sequence with `h` left as a parameter: the scatter-add of the scaled gathered rows. Everything
  that depends on the edge list alone (the indices, the degrees, the normalisation) is kept as the reference's own stage
  functions and is never opened: to compare the two programs it is enough that both apply this one function.
-/
import proofs.«129603_j54709293417099_1_alg».proof.Proof.RefRead

noncomputable section

namespace Cert.Gcn

open Cert.ReferenceIdeal Cert.ReferenceIdeal.ReadP Idealize.ShloMosaic

variable {F : FTy → Type} [FloatOps F]

/-- The rows of `h` gathered along the edges' sources, scaled by the edges' normalisation, and summed into the edges'
    destinations. -/
def aggregate (h : (⟨S100000x64, .f32⟩ : BufTy).Contents (Elt F)) (e : (⟨S2x3200000, .i32⟩ : BufTy).Contents (Elt F)) :
    (⟨S100000x64, .f32⟩ : BufTy).Contents (Elt F) :=
  Host.scatterAdd scatter_S100000x64_S3300000x1_S3300000x64_1_0_0_1 (val_main_v43 (F := F)) (val_main_v44 (F := F) e)
    (mulf (Host.gather gather_S100000x64_S3300000x1_S3300000x64_1_0_n_n_0_1_164 h (val_main_v38 (F := F) e))
      (val_main_v41 (F := F) e))

/-- The reference's aggregated features are this function of its own feature transform. -/
theorem reference_aggregate (x0 : (⟨S100000x14, .f32⟩ : BufTy).Contents (Elt F)) (x1 : (⟨S2x3200000, .i32⟩ : BufTy).Contents (Elt F))
    (x2 : (⟨S14x64, .f32⟩ : BufTy).Contents (Elt F)) :
    val_main_v45 (F := F) x0 x1 x2 = aggregate (val_main_v0 (F := F) x0 x2) x1 := by
  unfold val_main_v45 val_main_v42 val_main_v39 aggregate
  rfl

end Cert.Gcn

end
-- ==== Proof.GcnSpec.lean ====
/-
  What the two dense stages of this graph-convolution layer compute, as functions of whole arrays read at explicit
  coordinates, over the extended reals.

  The layer is: a feature transform `h = x · W1` (100000 nodes, 14 input features, 64 hidden channels); a
  neighbourhood aggregation of `h` over the edge list with self-loops and symmetric degree normalisation, which both
  programs perform with the very same sequence of array operations and which is therefore never opened here; and a
  readout `relu(agg + b1) · W2 + b2` to one value per node.

  `hidden` is one entry of the feature transform: the inner product of row `r` of `x` with column `q` of `W1`.
  `readout` is one entry of the result: the bias `b1` is added channel by channel to row `r` of the aggregated
  features, negative channels are cut to zero, the row is contracted against the single column of `W2`, and the scalar
  bias `b2` is added. Neither uses any law beyond the meaning of a finite sum, so neither needs its arguments finite.
-/
import proofs.«129603_j54709293417099_1_alg».proof.KernelIdeal
import Idealize.ShloMosaic.PureOps.Ideal
import Idealize.ShloMosaic.Lib.ValueIdx

noncomputable section

namespace Cert.Gcn

open Idealize.ShloMosaic Idealize.ShloMosaic.ValueIdx Cert.KernelIdeal

/-- Entry `(r, q)` of `x · W1`: the sum over the 14 input features of `x[r, l] · W1[l, q]`. -/
def hidden (x : S100000x14.Idx → EReal) (w : S14x64.Idx → EReal) (r : Fin 100000) (q : Fin 64) : EReal :=
  ∑ l : Fin 14, x (ix2 r l) * w (ix2 l q)

/-- The feature transform as a whole array: entry `i` is `hidden` at `i`'s row and column. -/
def hiddenArr (x : S100000x14.Idx → EReal) (w : S14x64.Idx → EReal) : S100000x64.Idx → EReal :=
  fun i => hidden x w (i 0) (i 1)

/-- Entry `r` of `relu(a + b1) · W2 + b2`: the sum over the 64 channels of `max (a[r, k] + b1[k]) 0 · W2[k, 0]`,
    plus `b2[0]`. -/
def readout (a : S100000x64.Idx → EReal) (b1 : S64.Idx → EReal) (w2 : S64x1.Idx → EReal) (b2 : S1.Idx → EReal)
    (r : Fin 100000) : EReal :=
  (∑ k : Fin 64, max (a (ix2 r k) + b1 (ix1 k)) 0 * w2 (ix2 k (0 : Fin 1))) + b2 (ix1 (0 : Fin 1))

/-- The readout as a whole array of one column: entry `i` is `readout` at `i`'s row. -/
def readoutArr (a : S100000x64.Idx → EReal) (b1 : S64.Idx → EReal) (w2 : S64x1.Idx → EReal) (b2 : S1.Idx → EReal) :
    S100000x1.Idx → EReal :=
  fun i => readout a b1 w2 b2 (i 0)

end Cert.Gcn

end
-- ==== Proof.RefValue.lean ====
/-
  The reference, read as the same function of its arguments.

  The reference computes `x · W1` as one matrix product over whole arrays, aggregates it over the graph, adds the bias
  `b1` broadcast along the rows, cuts at zero, contracts with `W2` as one matrix product, and adds `b2` broadcast along the
  rows. Read at an entry, a matrix product is the sum over the contracted axis and a broadcast reads its operand's one
  entry, so entry `r` of the result is `∑ k, max (agg[r, k] + b1[k]) 0 · W2[k, 0] + b2[0]` with `agg` the aggregation of
  `h[r, q] = ∑ l, x[r, l] · W1[l, q]`: the function `readoutArr (aggregate (hiddenArr x W1) e) b1 W2 b2`.
-/
import proofs.«129603_j54709293417099_1_alg».proof.Proof.RefRead
import proofs.«129603_j54709293417099_1_alg».proof.Proof.Aggregate
import proofs.«129603_j54709293417099_1_alg».proof.Proof.GcnSpec
import Idealize.ShloMosaic.Lib.ValueIdx
import Idealize.ShloMosaic.PureOps.Ideal.Laws

noncomputable section

namespace Cert.ReferenceIdeal.RefValue

open Cert.ReferenceIdeal Cert.ReferenceIdeal.ReadP
open Idealize.ShloMosaic Idealize.ShloMosaic.ValueIdx

/-! ## The index plumbing of the reference's last operations, as coordinates -/

theorem transform_lhs (i : S100000x64.Idx) (k : Fin 14) : lidx_main_v0 i k = ix2 (i 0) k :=
  funext fun a => by match a with | ⟨0, _⟩ => rfl | ⟨1, _⟩ => rfl
theorem transform_rhs (i : S100000x64.Idx) (k : Fin 14) : ridx_main_v0 i k = ix2 k (i 1) :=
  funext fun a => by match a with | ⟨0, _⟩ => rfl | ⟨1, _⟩ => rfl
theorem readout_lhs (i : S100000x1.Idx) (k : Fin 64) : lidx_main_v50 i k = ix2 (i 0) k :=
  funext fun a => by match a with | ⟨0, _⟩ => rfl | ⟨1, _⟩ => rfl
theorem readout_rhs (i : S100000x1.Idx) (k : Fin 64) : ridx_main_v50 i k = ix2 k (0 : Fin 1) :=
  funext fun a => by
    match a with
    | ⟨0, _⟩ => rfl
    | ⟨1, _⟩ => exact Fin.ext (by have h : (i 1).val < 1 := (i 1).isLt; show (i 1).val = 0; omega)
theorem bias1_index (j : S100000x64.Idx) : idx_main_v46 (idx_main_v47 j) = ix1 (j 1) :=
  funext fun a => by match a with | ⟨0, _⟩ => rfl
theorem bias2_index (i : S100000x1.Idx) : idx_main_v51 (idx_main_v52 i) = ix1 (0 : Fin 1) :=
  funext fun a => by match a with | ⟨0, _⟩ => rfl

/-! ## The reference's stages as the specification's functions -/

/-- The reference's feature transform is `x · W1` entry by entry. -/
theorem transform_eq (x0 : (⟨S100000x14, .f32⟩ : BufTy).Contents (Elt Ideal)) (x2 : (⟨S14x64, .f32⟩ : BufTy).Contents (Elt Ideal)) :
    val_main_v0 (F := Ideal) x0 x2 = Cert.Gcn.hiddenArr x0 x2 := by
  funext i
  rw [val_main_v0_apply]
  unfold Cert.Gcn.hiddenArr Cert.Gcn.hidden
  refine Finset.sum_congr rfl fun k _ => ?_
  rw [transform_lhs, transform_rhs]
  rfl

/-- The reference's result is the readout of the aggregated feature transform. -/
theorem value_eq (x0 : (⟨S100000x14, .f32⟩ : BufTy).Contents (Elt Ideal)) (x1 : (⟨S2x3200000, .i32⟩ : BufTy).Contents (Elt Ideal))
    (x2 : (⟨S14x64, .f32⟩ : BufTy).Contents (Elt Ideal)) (x3 : (⟨S64, .f32⟩ : BufTy).Contents (Elt Ideal))
    (x4 : (⟨S64x1, .f32⟩ : BufTy).Contents (Elt Ideal)) (x5 : (⟨S1, .f32⟩ : BufTy).Contents (Elt Ideal)) :
    val_main_v53 (F := Ideal) x0 x1 x2 x3 x4 x5
      = Cert.Gcn.readoutArr (Cert.Gcn.aggregate (F := Ideal) (Cert.Gcn.hiddenArr x0 x2) x1) x3 x4 x5 := by
  funext i
  rw [val_main_v53_apply, val_main_v50_apply, val_main_v52_apply, val_main_v51_apply, bias2_index]
  unfold Cert.Gcn.readoutArr Cert.Gcn.readout
  refine congrArg (· + x5 (ix1 (0 : Fin 1))) (Finset.sum_congr rfl fun k _ => ?_)
  rw [val_main_v49_apply, val_main_v48_apply, val_main_v47_apply, val_main_v46_apply, val_main_call1_v0_apply,
    val_main_call1_cst_apply, Cert.Gcn.reference_aggregate, transform_eq, bias1_index, readout_lhs, readout_rhs]
  show max (Cert.Gcn.aggregate (F := Ideal) (Cert.Gcn.hiddenArr x0 x2) x1 (ix2 (i 0) k) + x3 (ix1 k)) (Ideal.ofBits .f32 0x00000000#32) * x4 (ix2 k (0 : Fin 1)) = _
  rw [Ideal.ofBits_zero_f32]

end Cert.ReferenceIdeal.RefValue

end
-- ==== Proof.Dense0.lean ====
/-
  The first dense stage of the layer, read off the kernel: what the feature-transform region leaves in its output array.

  The region walks the 100000 rows of `x` in ten blocks of 10000. At a block it holds rows
  `10000·t … 10000·t + 9999` of `x` (all 14 columns) and the whole of `W1`, multiplies them as matrices into a zero
  accumulator, and writes the 10000 × 64 product back as the same rows of the output. A matrix product into zero is, entry
  by entry, the plain sum over the contracted axis (a change of float format is the identity over the extended reals), so
  every entry `(r, q)` of the output array ends as `∑ l, x[r, l] · W1[l, q]`: the blocks tile the array, and each is the
  restriction of that one function.
-/
import proofs.«129603_j54709293417099_1_alg».proof.Proof.Gen.KernelIdeal.Frame
import proofs.«129603_j54709293417099_1_alg».proof.Proof.GcnSpec
import Idealize.ShloMosaic.Lib.Pipeline.Value
import Idealize.ShloMosaic.Lib.ValueIdx
import Idealize.ShloMosaic.PureOps.Ideal.Laws

set_option maxRecDepth 16384

noncomputable section

namespace Cert.KernelIdeal.Dense0

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

/-! ## The block product, entry by entry -/

/-- The left operand of the block product is read at the output's row … -/
theorem lhs_axis0 (i : S10000x64.Idx) (q : dot_S10000x14_S14x64_S10000x64_1_0_0_1_n_n.contr.Idx) :
    (dot_S10000x14_S14x64_S10000x64_1_0_0_1_n_n.lhsIdx i q 0).val = (i 0).val := by
  unfold DotDims.lhsIdx
  rw [dif_neg (show ¬(0 : Fin S10000x14.rank) ∈ dot_S10000x14_S14x64_S10000x64_1_0_0_1_n_n.lhsBatch by decide), dif_pos (show (0 : Fin S10000x14.rank) ∈ dot_S10000x14_S14x64_S10000x64_1_0_0_1_n_n.lhsNonContracting by decide)]
  rfl
/-- … and at the contracted position; -/
theorem lhs_axis1 (i : S10000x64.Idx) (q : dot_S10000x14_S14x64_S10000x64_1_0_0_1_n_n.contr.Idx) :
    (dot_S10000x14_S14x64_S10000x64_1_0_0_1_n_n.lhsIdx i q 1).val = (q ⟨0, by decide⟩).val :=
  dot_S10000x14_S14x64_S10000x64_1_0_0_1_n_n.lhsIdx_val_of_single rfl i q
/-- the right operand at the contracted position … -/
theorem rhs_axis0 (i : S10000x64.Idx) (q : dot_S10000x14_S14x64_S10000x64_1_0_0_1_n_n.contr.Idx) :
    (dot_S10000x14_S14x64_S10000x64_1_0_0_1_n_n.rhsIdx i q 0).val = (q ⟨0, by decide⟩).val :=
  dot_S10000x14_S14x64_S10000x64_1_0_0_1_n_n.rhsIdx_val_of_single rfl i q
/-- … and at the output's column. -/
theorem rhs_axis1 (i : S10000x64.Idx) (q : dot_S10000x14_S14x64_S10000x64_1_0_0_1_n_n.contr.Idx) :
    (dot_S10000x14_S14x64_S10000x64_1_0_0_1_n_n.rhsIdx i q 1).val = (i 1).val := by
  unfold DotDims.rhsIdx
  rw [dif_neg (show ¬(1 : Fin S14x64.rank) ∈ dot_S10000x14_S14x64_S10000x64_1_0_0_1_n_n.rhsBatch by decide), dif_pos (show (1 : Fin S14x64.rank) ∈ dot_S10000x14_S14x64_S10000x64_1_0_0_1_n_n.rhsNonContracting by decide)]
  rfl

/-- Entry `(p, q)` of what the body stores: the inner product of row `p` of the block of `x` with column `q` of `W1`. -/
theorem stored_entry (x0 : Vec Ideal S10000x14 .f32) (x1 : Vec Ideal S14x64 .f32) (p : Fin 10000) (q : Fin 64) :
    k0_pay1 (F := Ideal) x0 x1 (ix2 p q) = ∑ l : Fin 14, x0 (ix2 p l) * x1 (ix2 l q) := by
  unfold k0_pay1
  simp only [matmul]
  rw [Ideal.matmul_constant_zero_apply, ← Equiv.sum_comp (contrEquiv1 dot_S10000x14_S14x64_S10000x64_1_0_0_1_n_n 14 rfl rfl).symm]
  refine Finset.sum_congr rfl fun k _ => ?_
  have hk := contrEquiv1_symm_val dot_S10000x14_S14x64_S10000x64_1_0_0_1_n_n 14 rfl rfl k
  have el : dot_S10000x14_S14x64_S10000x64_1_0_0_1_n_n.lhsIdx (ix2 p q) ((contrEquiv1 dot_S10000x14_S14x64_S10000x64_1_0_0_1_n_n 14 rfl rfl).symm k) = ix2 p k := funext fun a => Fin.ext (by
    match a with
    | ⟨0, _⟩ => exact lhs_axis0 _ _
    | ⟨1, _⟩ => exact (lhs_axis1 _ _).trans hk)
  have er : dot_S10000x14_S14x64_S10000x64_1_0_0_1_n_n.rhsIdx (ix2 p q) ((contrEquiv1 dot_S10000x14_S14x64_S10000x64_1_0_0_1_n_n 14 rfl rfl).symm k) = ix2 k q := funext fun a => Fin.ext (by
    match a with
    | ⟨0, _⟩ => exact (rhs_axis0 _ _).trans hk
    | ⟨1, _⟩ => exact rhs_axis1 _ _)
  rw [el, er]
  rfl

/-- The same entry against whole arrays: if row `p` of the block of `x` is row `r` of the array `X`, and column `q` of the
    held `W1` is column `s` of the array `Wt`, the stored entry is entry `(r, s)` of `X · Wt`. -/
theorem block_entry (X : S100000x14.Idx → EReal) (Wt : S14x64.Idx → EReal)
    (x0 : Vec Ideal S10000x14 .f32) (x1 : Vec Ideal S14x64 .f32) (r : Fin 100000) (s : Fin 64) (p : Fin 10000) (q : Fin 64)
    (h0 : ∀ l : Fin 14, x0 (ix2 p l) = X (ix2 r l)) (h1 : ∀ l : Fin 14, x1 (ix2 l q) = Wt (ix2 l s)) :
    k0_pay1 (F := Ideal) x0 x1 (ix2 p q) = Cert.Gcn.hidden X Wt r s := by
  rw [stored_entry]
  unfold Cert.Gcn.hidden
  exact Finset.sum_congr rfl fun l _ => by rw [h0 l, h1 l]

/-! ## From the blocks to the array -/

section
variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at grid point `t`: the block of `x` and the output block are the `t`-th along the
    rows and the only one along the columns; `W1` is one block. Decided over the ten points. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is rows `10000·t …` of `x · W1`: the block of that one array. -/
theorem written_back (c : Dev nD) (t : Fin cfg0.N) :
    (dat0 (F := Ideal) V c).flushed 2 t
      = ((cfg0.win 2).blk t).view.read (Elt Ideal) (hiddenArr (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S10000x14) zero_offsets, View.ld_unit_zero (S := S14x64) zero_offsets]
  obtain ⟨e0, e1, e2, e3, e4, e5⟩ := block_indices t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (ix2 p q)
    = Cert.Gcn.hiddenArr (V c main_arg0) (V c main_arg2) (((cfg0.win 2).blk t).view.emb (ix2 p q))
  refine block_entry (V c main_arg0) (V c main_arg2) (iblk0 V c 0 t) (iblk0 V c 1 t)
    ((((cfg0.win 2).blk t).view.emb (ix2 p q)) 0) ((((cfg0.win 2).blk t).view.emb (ix2 p q)) 1) p q (fun l => ?_) (fun l => ?_)
  · show V c main_arg0 (((cfg0.win 0).blk t).view.emb (ix2 p l)) = V c main_arg0 _
    refine congrArg _ (funext fun a => Fin.ext ?_)
    match a with
    | ⟨0, _⟩ => show win0_0.index t (0 : Fin 2) * 10000 + 1 * p.val = win0_2.index t (0 : Fin 2) * 10000 + 1 * p.val; omega
    | ⟨1, _⟩ => show win0_0.index t (1 : Fin 2) * 14 + 1 * l.val = l.val; omega
  · show V c main_arg2 (((cfg0.win 1).blk t).view.emb (ix2 l q)) = V c main_arg2 _
    refine congrArg _ (funext fun a => Fin.ext ?_)
    match a with
    | ⟨0, _⟩ => show win0_1.index t (0 : Fin 2) * 14 + 1 * l.val = l.val; omega
    | ⟨1, _⟩ => show win0_1.index t (1 : Fin 2) * 64 + 1 * q.val = win0_2.index t (1 : Fin 2) * 64 + 1 * q.val; omega

/-- An entry of the output array lies in point `t`'s block iff each coordinate lies in the block's range. -/
theorem in_block_iff (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- The ten blocks tile the array: row `r` is in the block of point `r / 10000`. -/
theorem blocks_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 := ⟨⟨(i 0).val / 10000, by show _ < 10; omega⟩, rfl⟩
  obtain ⟨e0, e1, e2, e3, e4, e5⟩ := block_indices t
  refine ⟨t, flush0_2 t, ?_⟩
  rw [in_block_iff]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region its output array holds `x · W1`, entry by entry, of the arrays the region found. -/
theorem output_array (c : Dev nD) :
    (dat0 (F := Ideal) V c).arrAt 2 cfg0.N = hiddenArr (V c main_arg0) (V c main_arg2) :=
  (dat0 (F := Ideal) V c).arrAt_eq_of_cover 2 (hiddenArr (V c main_arg0) (V c main_arg2))
    (fun t _ => written_back V c t) blocks_cover

end

end Cert.KernelIdeal.Dense0

end
-- ==== Proof.Dense1.lean ====
/-
  The second dense stage of the layer, read off the kernel: what the readout region leaves in its output array.

  The region walks the 100000 rows of the aggregated features `a` in ten blocks of 10000. At a block it holds rows
  `10000·t … 10000·t + 9999` of `a` (all 64 channels), the bias `b1` laid out as one row of 64, the whole of `W2` (64 × 1)
  and the bias `b2` as a 1 × 1 array. It adds the bias row to every row of the block, cuts negative entries to zero,
  multiplies the 10000 × 64 result by `W2` into a zero accumulator, adds `b2` to every entry, and writes the
  10000 × 1 column back as the same rows of the output. Entry by entry the product into zero is the plain sum over the 64
  channels, a broadcast row is read at its one row, and a change of float format is the identity over the extended reals;
  so entry `r` of the output array ends as `∑ k, max (a[r, k] + b1[0, k]) 0 · W2[k, 0] + b2[0, 0]`: the blocks tile the
  array, and each is the restriction of that one function.
-/
import proofs.«129603_j54709293417099_1_alg».proof.Proof.Gen.KernelIdeal.Frame
import proofs.«129603_j54709293417099_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- Entry `r` of `relu(a + b1) · W2 + b2` with the two biases laid out as the region holds them, a 1 × 64 row and a
    1 × 1 array. -/
def rowReadout (a : S100000x64.Idx → EReal) (b1 : S1x64.Idx → EReal) (w2 : S64x1.Idx → EReal) (b2 : S1x1.Idx → EReal)
    (r : Fin 100000) (s : Fin 1) : EReal :=
  (∑ k : Fin 64, max (a (ix2 r k) + b1 (ix2 (0 : Fin 1) k)) 0 * w2 (ix2 k s)) + b2 (ix2 (0 : Fin 1) s)

/-- The same as a whole array of one column. -/
def rowReadoutArr (a : S100000x64.Idx → EReal) (b1 : S1x64.Idx → EReal) (w2 : S64x1.Idx → EReal) (b2 : S1x1.Idx → EReal) :
    S100000x1.Idx → EReal :=
  fun i => rowReadout a b1 w2 b2 (i 0) (i 1)

/-! ## The block product, entry by entry -/

theorem lhs_axis0 (i : S10000x1.Idx) (q : dot_S10000x64_S64x1_S10000x1_1_0_0_1_n_n.contr.Idx) :
    (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
theorem lhs_axis1 (i : S10000x1.Idx) (q : dot_S10000x64_S64x1_S10000x1_1_0_0_1_n_n.contr.Idx) :
    (dot_S10000x64_S64x1_S10000x1_1_0_0_1_n_n.lhsIdx i q 1).val = (q ⟨0, by decide⟩).val :=
  dot_S10000x64_S64x1_S10000x1_1_0_0_1_n_n.lhsIdx_val_of_single rfl i q
theorem rhs_axis0 (i : S10000x1.Idx) (q : dot_S10000x64_S64x1_S10000x1_1_0_0_1_n_n.contr.Idx) :
    (dot_S10000x64_S64x1_S10000x1_1_0_0_1_n_n.rhsIdx i q 0).val = (q ⟨0, by decide⟩).val :=
  dot_S10000x64_S64x1_S10000x1_1_0_0_1_n_n.rhsIdx_val_of_single rfl i q
theorem rhs_axis1 (i : S10000x1.Idx) (q : dot_S10000x64_S64x1_S10000x1_1_0_0_1_n_n.contr.Idx) :
    (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

/-- Entry `(p, s)` of what the body stores: row `p` of the block, biased and cut at zero, against column `s` of `W2`,
    plus the scalar bias. -/
theorem stored_entry (v0 : Vec Ideal S10000x64 .f32) (v2 : Vec Ideal S1x64 .f32) (v9 : Vec Ideal S64x1 .f32)
    (v12 : Vec Ideal S1x1 .f32) (p : Fin 10000) (s : Fin 1) :
    k1_pay1 (F := Ideal) v0 v2 v9 v12 (ix2 p s)
      = (∑ k : Fin 64, max (v0 (ix2 p k) + v2 (ix2 (0 : Fin 1) k)) 0 * v9 (ix2 k s)) + v12 (ix2 (0 : Fin 1) s) := by
  unfold k1_pay1
  rw [shapeCast_self, shapeCast_self, shapeCast_self, addf_apply, broadcastTo_1b_ab_apply]
  refine congrArg (· + v12 (ix2 (0 : Fin 1) s)) ?_
  simp only [matmul]
  rw [Ideal.matmul_constant_zero_apply, ← Equiv.sum_comp (contrEquiv1 dot_S10000x64_S64x1_S10000x1_1_0_0_1_n_n 64 rfl rfl).symm]
  refine Finset.sum_congr rfl fun k _ => ?_
  have hk := contrEquiv1_symm_val dot_S10000x64_S64x1_S10000x1_1_0_0_1_n_n 64 rfl rfl k
  have el : dot_S10000x64_S64x1_S10000x1_1_0_0_1_n_n.lhsIdx (ix2 p s) ((contrEquiv1 dot_S10000x64_S64x1_S10000x1_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S10000x64_S64x1_S10000x1_1_0_0_1_n_n.rhsIdx (ix2 p s) ((contrEquiv1 dot_S10000x64_S64x1_S10000x1_1_0_0_1_n_n 64 rfl rfl).symm k) = ix2 k s := funext fun a => Fin.ext (by
    match a with
    | ⟨0, _⟩ => exact (rhs_axis0 _ _).trans hk
    | ⟨1, _⟩ => exact rhs_axis1 _ _)
  rw [el, er]
  show max (v0 (ix2 p k) + broadcastTo S10000x64 v2 broadcasts_S1x64_S10000x64 (ix2 p k)) (Ideal.ofBits .f32 0x00000000#32) * v9 (ix2 k s) = _
  rw [broadcastTo_1b_ab_apply, Ideal.ofBits_zero_f32]

/-- The same entry against whole arrays: if row `p` of the block is row `r` of the array `A`, and the three held operands
    are the arrays `B1`, `W`, `B2`, the stored entry is entry `(r, s)` of the readout. -/
theorem block_entry (A : S100000x64.Idx → EReal) (B1 : S1x64.Idx → EReal) (W : S64x1.Idx → EReal) (B2 : S1x1.Idx → EReal)
    (v0 : Vec Ideal S10000x64 .f32) (v2 : Vec Ideal S1x64 .f32) (v9 : Vec Ideal S64x1 .f32) (v12 : Vec Ideal S1x1 .f32)
    (r : Fin 100000) (s' : Fin 1) (p : Fin 10000) (s : Fin 1)
    (h0 : ∀ k : Fin 64, v0 (ix2 p k) = A (ix2 r k)) (h1 : ∀ k : Fin 64, v2 (ix2 (0 : Fin 1) k) = B1 (ix2 (0 : Fin 1) k))
    (h2 : ∀ k : Fin 64, v9 (ix2 k s) = W (ix2 k s')) (h3 : v12 (ix2 (0 : Fin 1) s) = B2 (ix2 (0 : Fin 1) s')) :
    k1_pay1 (F := Ideal) v0 v2 v9 v12 (ix2 p s) = rowReadout A B1 W B2 r s' := by
  rw [stored_entry, h3]
  unfold rowReadout
  exact congrArg (· + B2 (ix2 (0 : Fin 1) s')) (Finset.sum_congr rfl fun k _ => by rw [h0 k, h1 k, h2 k])

/-! ## From the blocks to the array -/

section
variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at grid point `t`: the block of `a` and the output block are the `t`-th along the
    rows and the only one along the columns; `b1`, `W2` and `b2` are one block each. Decided over the ten points. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is rows `10000·t …` of the readout: the block of that one array. -/
theorem written_back (c : Dev nD) (t : Fin cfg1.N) :
    (dat1 (F := Ideal) V c).flushed 4 t
      = ((cfg1.win 4).blk t).view.read (Elt Ideal)
          (rowReadoutArr (V c main_v45) (V c main_v46) (V c main_arg4) (V c main_v47)) := by
  show (cfg1.win 4).cut (grid1.coords t) ((dat1 (F := Ideal) V c).after 4 t) = _
  rw [after1_4]
  unfold out1_4
  rw [View.canon_unit_zero zero_offsets]
  simp only [View.ld_unit_zero (S := S10000x64) zero_offsets, View.ld_unit_zero (S := S1x64) zero_offsets,
    View.ld_unit_zero (S := S64x1) zero_offsets, View.ld_unit_zero (S := S1x1) zero_offsets]
  obtain ⟨e0, e1, e2, e3, e4, e5, e6, e7, e8, e9⟩ := block_indices t
  funext j
  obtain ⟨p, s, rfl⟩ : ∃ (p : Fin 10000) (s : Fin 1), j = ix2 p s := ⟨j 0, j 1, eq_ix2 j⟩
  show k1_pay1 (F := Ideal) (iblk1 V c 0 t) (iblk1 V c 1 t) (iblk1 V c 2 t) (iblk1 V c 3 t) (ix2 p s)
    = rowReadoutArr (V c main_v45) (V c main_v46) (V c main_arg4) (V c main_v47) (((cfg1.win 4).blk t).view.emb (ix2 p s))
  refine block_entry (V c main_v45) (V c main_v46) (V c main_arg4) (V c main_v47)
    (iblk1 V c 0 t) (iblk1 V c 1 t) (iblk1 V c 2 t) (iblk1 V c 3 t)
    ((((cfg1.win 4).blk t).view.emb (ix2 p s)) 0) ((((cfg1.win 4).blk t).view.emb (ix2 p s)) 1) p s
    (fun k => ?_) (fun k => ?_) (fun k => ?_) ?_
  · show V c main_v45 (((cfg1.win 0).blk t).view.emb (ix2 p k)) = V c main_v45 _
    refine congrArg _ (funext fun a => Fin.ext ?_)
    match a with
    | ⟨0, _⟩ => show win1_0.index t (0 : Fin 2) * 10000 + 1 * p.val = win1_4.index t (0 : Fin 2) * 10000 + 1 * p.val; omega
    | ⟨1, _⟩ => show win1_0.index t (1 : Fin 2) * 64 + 1 * k.val = k.val; omega
  · show V c main_v46 (((cfg1.win 1).blk t).view.emb (ix2 (0 : Fin 1) k)) = V c main_v46 _
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  · show V c main_arg4 (((cfg1.win 2).blk t).view.emb (ix2 k s)) = V c main_arg4 _
    refine congrArg _ (funext fun a => Fin.ext ?_)
    match a with
    | ⟨0, _⟩ => show win1_2.index t (0 : Fin 2) * 64 + 1 * k.val = k.val; omega
    | ⟨1, _⟩ => show win1_2.index t (1 : Fin 2) * 1 + 1 * s.val = win1_4.index t (1 : Fin 2) * 1 + 1 * s.val; omega
  · show V c main_v47 (((cfg1.win 3).blk t).view.emb (ix2 (0 : Fin 1) s)) = V c main_v47 _
    refine congrArg _ (funext fun a => Fin.ext ?_)
    match a with
    | ⟨0, _⟩ => show win1_3.index t (0 : Fin 2) * 1 + 1 * 0 = 0; omega
    | ⟨1, _⟩ => show win1_3.index t (1 : Fin 2) * 1 + 1 * s.val = win1_4.index t (1 : Fin 2) * 1 + 1 * s.val; omega

/-- An entry of the output array lies in point `t`'s block iff each coordinate lies in the block's range. -/
theorem in_block_iff (t : Fin cfg1.N) (i : S100000x1.Idx) :
    i ∈ ((cfg1.win 4).blk t).view.set ↔ ∀ a : Fin 2, win1_4.index t a * S10000x1.size a ≤ (i a).val ∧ (i a).val < win1_4.index t a * S10000x1.size a + S10000x1.size a := by
  show i ∈ ((View.whole main_v48).slice (win1_4.rect t)).set ↔ _
  rw [View.set_slice_whole, Rect.mem_set_unit]
  exact Iff.rfl

/-- The ten blocks tile the array: row `r` is in the block of point `r / 10000`. -/
theorem blocks_cover (i : S100000x1.Idx) :
    ∃ t : Fin cfg1.N, (cfg1.win 4).flush t = true ∧ i ∈ ((cfg1.win 4).blk t).view.set := by
  have hi0 : (i 0).val < 100000 := (i 0).isLt
  have hi1 : (i 1).val < 1 := (i 1).isLt
  obtain ⟨t, ht⟩ : ∃ t : Fin cfg1.N, t.val = (i 0).val / 10000 := ⟨⟨(i 0).val / 10000, by show _ < 10; omega⟩, rfl⟩
  obtain ⟨e0, e1, e2, e3, e4, e5, e6, e7, e8, e9⟩ := block_indices t
  refine ⟨t, flush1_4 t, ?_⟩
  rw [in_block_iff]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 1 ≤ (i 1).val ∧ (i 1).val < win1_4.index t (1 : Fin 2) * 1 + 1; omega

/-- After the region its output array holds the readout, entry by entry, of the arrays the region found. -/
theorem output_array (c : Dev nD) :
    (dat1 (F := Ideal) V c).arrAt 4 cfg1.N
      = rowReadoutArr (V c main_v45) (V c main_v46) (V c main_arg4) (V c main_v47) :=
  (dat1 (F := Ideal) V c).arrAt_eq_of_cover 4 (rowReadoutArr (V c main_v45) (V c main_v46) (V c main_arg4) (V c main_v47))
    (fun t _ => written_back V c t) blocks_cover

end

end Cert.KernelIdeal.Dense1

end
-- ==== Proof.Stretch.lean ====
/-
  The host operations between the two regions, read off the kernel's run: what the second region finds in its four input
  arrays.

  Between the feature transform and the readout the kernel's program runs, on the host, the neighbourhood aggregation (the
  function `aggregate` of the first region's output and of the edge list) and lays the two biases out as a 1 × 64 row and a
  1 × 1 array; `W2` it leaves as launched. None of these operations writes the first region's output or an argument, so
  each array the second region reads is the corresponding operation applied to the arrays as the first region left them.
-/
import proofs.«129603_j54709293417099_1_alg».proof.Proof.Gen.KernelIdeal.Frame
import proofs.«129603_j54709293417099_1_alg».proof.Proof.Aggregate
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The first region writes no argument: after it each argument array is as launched. -/
theorem after_region0_arg1 (c : Dev nD) : W1 m ρ c (Proc.devRef .tc main_arg1) = m ((c : Thread nD τ).loc main_arg1) :=
  W1_of_ne m ρ c main_arg1 (by decide)
theorem after_region0_arg3 (c : Dev nD) : W1 m ρ c (Proc.devRef .tc main_arg3) = m ((c : Thread nD τ).loc main_arg3) :=
  W1_of_ne m ρ c main_arg3 (by decide)
theorem after_region0_arg4 (c : Dev nD) : W1 m ρ c (Proc.devRef .tc main_arg4) = m ((c : Thread nD τ).loc main_arg4) :=
  W1_of_ne m ρ c main_arg4 (by decide)
theorem after_region0_arg5 (c : Dev nD) : W1 m ρ c (Proc.devRef .tc main_arg5) = m ((c : Thread nD τ).loc main_arg5) :=
  W1_of_ne m ρ c main_arg5 (by decide)

/-- The bias `b1` as the second region finds it: the launched vector laid out as one row. -/
theorem bias1_row (c : Dev nD) :
    W4 m ρ c (Proc.devRef .tc main_v46) = shapeCast S1x64 (m ((c : Thread nD τ).loc main_arg3)) shapeCasts_S64_S1x64 := by
  dsimp only [W4, W3, W2]
  simp only [hostOps1, hostOps1_1, hostOps1_2]
  after_results_simp
  rw [after_region0_arg3]
  rfl

/-- The bias `b2` as the second region finds it: the launched one-entry vector laid out as a 1 × 1 array. -/
theorem bias2_cell (c : Dev nD) :
    W4 m ρ c (Proc.devRef .tc main_v47) = shapeCast S1x1 (m ((c : Thread nD τ).loc main_arg5)) shapeCasts_S1_S1x1 := by
  dsimp only [W4, W3, W2]
  simp only [hostOps1, hostOps1_1, hostOps1_2]
  after_results_simp
  rw [after_region0_arg5]
  rfl

/-- `W2` as the second region finds it: as launched. -/
theorem weights2 (c : Dev nD) : W4 m ρ c (Proc.devRef .tc main_arg4) = m ((c : Thread nD τ).loc main_arg4) := by
  dsimp only [W4, W3, W2]
  simp only [hostOps1, hostOps1_1, hostOps1_2]
  after_results_simp
  exact after_region0_arg4 m ρ c

/-- The aggregated features as the second region finds them: `aggregate` of the first region's output and of the launched
    edge list. The two sides are the same operations, constants and index plumbing, spelt once in each program. -/
theorem aggregated (c : Dev nD) :
    W4 m ρ c (Proc.devRef .tc main_v45)
      = Cert.Gcn.aggregate (F := F) (W1 m ρ c (Proc.devRef .tc main_v0)) (m ((c : Thread nD τ).loc main_arg1)) := by
  dsimp only [W4, W3, W2]
  simp only [hostOps1, hostOps1_1, hostOps1_2]
  after_results_simp
  repeat (first
    | rw [reshape_result] | rw [unary_result] | rw [nullary_result] | rw [binary_result]
    | (rw [nullary_result_ne]; rotate_left; decide)
    | (rw [unary_result_ne]; rotate_left; decide)
    | (rw [binary_result_ne]; rotate_left; decide)
    | (rw [reshape_result_ne]; rotate_left; decide))
  simp only [after_region0_arg1]
  unfold Cert.Gcn.aggregate
  simp only [Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_v7, Cert.ReferenceIdeal.ReadP.val_main_cst, Cert.ReferenceIdeal.ReadP.val_main_v8, Cert.ReferenceIdeal.ReadP.val_main_cst_0, Cert.ReferenceIdeal.ReadP.val_main_v9, Cert.ReferenceIdeal.ReadP.val_main_v10, Cert.ReferenceIdeal.ReadP.val_main_v11, Cert.ReferenceIdeal.ReadP.val_main_cst_1, Cert.ReferenceIdeal.ReadP.val_main_v12, Cert.ReferenceIdeal.ReadP.val_main_v13, Cert.ReferenceIdeal.ReadP.val_main_cst_2, Cert.ReferenceIdeal.ReadP.val_main_v14, Cert.ReferenceIdeal.ReadP.val_main_v15, Cert.ReferenceIdeal.ReadP.val_main_v16, Cert.ReferenceIdeal.ReadP.val_main_cst_3, Cert.ReferenceIdeal.ReadP.val_main_call0_v0, Cert.ReferenceIdeal.ReadP.val_main_call0_v1, Cert.ReferenceIdeal.ReadP.val_main_v17, Cert.ReferenceIdeal.ReadP.val_main_c, Cert.ReferenceIdeal.ReadP.val_main_v18, Cert.ReferenceIdeal.ReadP.val_main_v19, Cert.ReferenceIdeal.ReadP.val_main_c_4, Cert.ReferenceIdeal.ReadP.val_main_v20, Cert.ReferenceIdeal.ReadP.val_main_v21, Cert.ReferenceIdeal.ReadP.val_main_v22, Cert.ReferenceIdeal.ReadP.val_main_v23, Cert.ReferenceIdeal.ReadP.val_main_v24, Cert.ReferenceIdeal.ReadP.val_main_c_5, Cert.ReferenceIdeal.ReadP.val_main_v25, Cert.ReferenceIdeal.ReadP.val_main_v26, Cert.ReferenceIdeal.ReadP.val_main_c_6, Cert.ReferenceIdeal.ReadP.val_main_v27, Cert.ReferenceIdeal.ReadP.val_main_v28, Cert.ReferenceIdeal.ReadP.val_main_v29, Cert.ReferenceIdeal.ReadP.val_main_v30, Cert.ReferenceIdeal.ReadP.val_main_v31, Cert.ReferenceIdeal.ReadP.val_main_v32, Cert.ReferenceIdeal.ReadP.val_main_c_7, Cert.ReferenceIdeal.ReadP.val_main_v33, Cert.ReferenceIdeal.ReadP.val_main_v34, Cert.ReferenceIdeal.ReadP.val_main_c_8, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_v40, Cert.ReferenceIdeal.ReadP.val_main_v41, Cert.ReferenceIdeal.ReadP.val_main_cst_9, Cert.ReferenceIdeal.ReadP.val_main_v43, Cert.ReferenceIdeal.ReadP.val_main_v44]
  try simp only [TRef.ofBuf, TRef.toBuf, cast_eq]
  rfl

end Cert.KernelIdeal.Stretch

end
-- ==== Proof.KernelValue.lean ====
/-
  The kernel's result as one function of its arguments.

  Chaining the pieces: the result array ends at what the readout region leaves (its closed form, of the arrays it found);
  the arrays it found are the aggregation of the feature-transform region's output, the two biases laid out as a row and as
  a 1 × 1 array, and `W2` as launched; the feature-transform region's output is `x · W1` of the launched arrays. A vector
  laid out as a 1 × n array holds, at `(0, k)`, the vector's entry `k` (the two have the same row-major position), so the
  laid-out biases read back as the launched ones, and the result is
  `readoutArr (aggregate (hiddenArr x W1) e) b1 W2 b2`.
-/
import proofs.«129603_j54709293417099_1_alg».proof.Proof.KernelRun
import proofs.«129603_j54709293417099_1_alg».proof.Proof.Dense0
import proofs.«129603_j54709293417099_1_alg».proof.Proof.Dense1
import proofs.«129603_j54709293417099_1_alg».proof.Proof.Stretch
import Idealize.ShloMosaic.Lib.Pipeline.Value
import Idealize.ShloMosaic.Lib.ValueIdx

set_option maxRecDepth 16384

noncomputable section

namespace Cert.KernelIdeal.KernelValue

open Cert.KernelIdeal Cert.KernelIdeal.Gen
open Idealize.ShloMosaic Idealize.ShloMosaic.TcCoe Idealize.ShloMosaic.ValueIdx Idealize.SL.Sem

/-- With the biases laid out as the region holds them, the region's readout is the readout over the bias vectors. -/
theorem laid_out_biases (A : S100000x64.Idx → EReal) (b1 : S64.Idx → EReal) (w2 : S64x1.Idx → EReal) (b2 : S1.Idx → EReal) :
    Dense1.rowReadoutArr A (shapeCast S1x64 b1 shapeCasts_S64_S1x64) w2 (shapeCast S1x1 b2 shapeCasts_S1_S1x1)
      = Cert.Gcn.readoutArr A b1 w2 b2 := by
  funext i
  have hi : i 1 = (0 : Fin 1) := Fin.ext (by have h : (i 1).val < 1 := (i 1).isLt; show (i 1).val = 0; omega)
  have e1 : ∀ k : Fin 64, shapeCast S1x64 b1 shapeCasts_S64_S1x64 (ix2 (0 : Fin 1) k) = b1 (ix1 k) := fun k =>
    shapeCast_apply b1 shapeCasts_S64_S1x64 (ix2 (0 : Fin 1) k) (ix1 k) (by
      rw [Shape.rowMajor_val_one, Shape.rowMajor_val_two]
      show k.val = 0 * 64 + k.val
      omega)
  have e2 : shapeCast S1x1 b2 shapeCasts_S1_S1x1 (ix2 (0 : Fin 1) (0 : Fin 1)) = b2 (ix1 (0 : Fin 1)) :=
    shapeCast_apply b2 shapeCasts_S1_S1x1 (ix2 (0 : Fin 1) (0 : Fin 1)) (ix1 (0 : Fin 1)) (by
      rw [Shape.rowMajor_val_one, Shape.rowMajor_val_two]
      show 0 = 0 * 1 + 0
      omega)
  unfold Dense1.rowReadoutArr Dense1.rowReadout Cert.Gcn.readoutArr Cert.Gcn.readout
  rw [hi, e2]
  exact congrArg (· + b2 (ix1 (0 : Fin 1))) (Finset.sum_congr rfl fun k _ => by rw [e1 k])

variable (m : (ℓ : Loc nD τ sig) → Buf (Elt Ideal) ℓ) (ρ : Dev nD → PrngReg)

/-- What the feature-transform region leaves in its output array, of the launched arrays. -/
theorem transformed (c : Dev nD) :
    W1 m ρ c (Proc.devRef .tc main_v0)
      = Cert.Gcn.hiddenArr (m ((c : Thread nD τ).loc main_arg0)) (m ((c : Thread nD τ).loc main_arg2)) :=
  (W1_arr m ρ c 2).trans (Dense0.output_array (V0 m ρ) c)

/-- The result array at the end of the run, as one function of the launched arguments. -/
theorem result_array (c : Dev nD) :
    W5 m ρ c (Proc.devRef .tc main_v48)
      = Cert.Gcn.readoutArr
          (Cert.Gcn.aggregate (F := Ideal)
            (Cert.Gcn.hiddenArr (m ((c : Thread nD τ).loc main_arg0)) (m ((c : Thread nD τ).loc main_arg2)))
            (m ((c : Thread nD τ).loc main_arg1)))
          (m ((c : Thread nD τ).loc main_arg3)) (m ((c : Thread nD τ).loc main_arg4)) (m ((c : Thread nD τ).loc main_arg5)) := by
  refine (W5_arr m ρ c 4).trans ((Dense1.output_array (V4 m ρ) c).trans ?_)
  show Dense1.rowReadoutArr (W4 m ρ c (Proc.devRef .tc main_v45)) (W4 m ρ c (Proc.devRef .tc main_v46))
      (W4 m ρ c (Proc.devRef .tc main_arg4)) (W4 m ρ c (Proc.devRef .tc main_v47)) = _
  rw [Stretch.aggregated, Stretch.bias1_row, Stretch.weights2, Stretch.bias2_cell, transformed]
  exact laid_out_biases _ _ _ _

/-- The kernel's run with the result named: every weakly fair execution terminates, nothing faulting, the result array
    at that function of the launched arguments and the arguments unchanged. -/
theorem run : θ_run defs (onTc (τ := τ) (main (F := Ideal))) ⟨m, fun _ => 0, ρ⟩ (fun r => ∀ c : Dev nD,
      r.2.mem ((c.tc : Thread nD τ).loc main_v48)
        = Cert.Gcn.readoutArr
            (Cert.Gcn.aggregate (F := Ideal)
              (Cert.Gcn.hiddenArr (m ((c.tc : Thread nD τ).loc main_arg0)) (m ((c.tc : Thread nD τ).loc main_arg2)))
              (m ((c.tc : Thread nD τ).loc main_arg1)))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_array m ρ c), (h c).2⟩) (Cert.KernelIdeal.GenRun.run_named m ρ)

end Cert.KernelIdeal.KernelValue

end
-- ==== Proof.lean ====
/-
  A graph-convolution layer on 100000 nodes, computed two ways, and why the two agree over the extended reals.

  Both programs compute, for node features `x` (100000 × 14), an edge list `e`, weights `W1` (14 × 64), `W2` (64 × 1) and
  biases `b1`, `b2`:  `h = x · W1`;  `agg` = the symmetric-normalised sum of `h` over each node's neighbours and itself;
  `out = relu(agg + b1) · W2 + b2`, one value per node.

  The kernel computes `h` and `out` in two tiled regions of ten row blocks each, with the aggregation on the host between
  them and `b1` added inside the second region; the reference computes all of it as whole-array operations. The
  aggregation is the same sequence of operations in both, applied to `h`, so it is carried as one function and never
  opened. What is left is that the kernel's blocks tile the arrays and each block product is the restriction of the whole
  product, entry by entry: a matrix product into a zero accumulator is the plain sum over the contracted axis, a change of
  float format is the identity, and a broadcast reads its operand's one row. No law that fails at an infinity (no
  distributing, no cancelling) is used, so the finiteness of the inputs is never opened.

  Both results are stated as the one function `readoutArr (aggregate (hiddenArr x W1) e) b1 W2 b2` of the arguments:
  the kernel's by reading its run region by region (Proof/KernelValue.lean), the reference's by reading its run operation by
  operation (Proof/RefValue.lean). The three frame claims are the generated runs with the results dropped, and the kernel's
  idealisation rewrote no operation.
-/
import proofs.«129603_j54709293417099_1_alg».proof.Defs
import proofs.«129603_j54709293417099_1_alg».proof.Proof.Gen.Kernel
import proofs.«129603_j54709293417099_1_alg».proof.Proof.Gen.Kernel.Skeleton
import proofs.«129603_j54709293417099_1_alg».proof.Proof.Gen.Kernel.Launch
import proofs.«129603_j54709293417099_1_alg».proof.Proof.Gen.Kernel.Points
import proofs.«129603_j54709293417099_1_alg».proof.Proof.Gen.Kernel.Frame
import proofs.«129603_j54709293417099_1_alg».proof.Proof.Gen.KernelIdeal
import proofs.«129603_j54709293417099_1_alg».proof.Proof.Gen.KernelIdeal.Skeleton
import proofs.«129603_j54709293417099_1_alg».proof.Proof.Gen.KernelIdeal.Launch
import proofs.«129603_j54709293417099_1_alg».proof.Proof.Gen.KernelIdeal.Points
import proofs.«129603_j54709293417099_1_alg».proof.Proof.Gen.KernelIdeal.Frame
import proofs.«129603_j54709293417099_1_alg».proof.Proof.Gen.ReferenceIdeal
import proofs.«129603_j54709293417099_1_alg».proof.Proof.Gen.Pre_finite_inputs
import proofs.«129603_j54709293417099_1_alg».proof.Proof.RefRun
import proofs.«129603_j54709293417099_1_alg».proof.Proof.RefRead
import proofs.«129603_j54709293417099_1_alg».proof.Proof.RefValue
import proofs.«129603_j54709293417099_1_alg».proof.Proof.KernelValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and keeps its arguments: its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The idealisation rewrote no operation. -/
theorem preserves : Cert.preserves_Kernel_KernelIdeal := trivial

/-- From memories agreeing on the arguments both programs end with the result at the same function of them. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v53_eq, Cert.ReferenceIdeal.RefValue.value_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
